-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S1 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  main_v3
-- ==== Kernel.lean ====
abbrev S1 : Shape := ⟨1, ![1]⟩
abbrev S1x2x2x3 : Shape := ⟨4, ![1, 2, 2, 3]⟩
abbrev S1x1x1x1 : Shape := ⟨4, ![1, 1, 1, 1]⟩

abbrev nBuf : Space → Nat
  | .hbm => 2
  | .vmem => 2
  | .smem => 0
  | _ => 0

abbrev bufTy : (tb : Table) → Fin (tcTables nBuf tb) → BufTy
  | .hbm, ⟨0, _⟩ => ⟨S1, .f32⟩
  | .hbm, ⟨1, _⟩ => ⟨S1x2x2x3, .f32⟩
  | .local _ .vmem, ⟨0, _⟩ => ⟨S1, .f32⟩
  | .local _ .vmem, ⟨1, _⟩ => ⟨S1x2x2x3, .f32⟩
  | _, _ => ⟨S1, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2x2x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1_S1_0 : ∀ a, (![0] : Fin 1 → Nat) a + S1.size a ≤ S1.size a
  h_S1 : 0 < S1.numel
  shapeCasts_S1_S1x1x1x1 : S1.ShapeCasts S1x1x1x1
  shapeCasts_S1x1x1x1_S1x1x1x1 : S1x1x1x1.ShapeCasts S1x1x1x1
  broadcasts_S1x1x1x1_S1x2x2x3 : S1x1x1x1.Broadcasts S1x2x2x3
  iota_S1x2x2x3_d1_w32 : S1x2x2x3.Iotas .tc 32 [1]
  iota_S1x2x2x3_d2_w32 : S1x2x2x3.Iotas .tc 32 [2]
  iota_S1x2x2x3_d3_w32 : S1x2x2x3.Iotas .tc 32 [3]
  inb_S1x2x2x3_S1x2x2x3_0_0_0_0 : ∀ a, (![0, 0, 0, 0] : Fin 4 → Nat) a + S1x2x2x3.size a ≤ S1x2x2x3.size a
  h_S1x2x2x3 : 0 < S1x2x2x3.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1.size a ≤ S1.size a
  hwx0_0 : ∀ i : grid0.Coords, EltTy.bits .f32 = 32 ∨ (Rect.block (s := S1) S1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2x2x3.size a ≤ S1x2x2x3.size a
  hwx0_1 : ∀ i : grid0.Coords, EltTy.bits .f32 = 32 ∨ (Rect.block (s := S1x2x2x3) S1x2x2x3.size (cc0_transform_1 i) (hinb0_1 i)).WholeWords (EltTy.packing .f32)

variable [Facts₀]

abbrev win0_0 : Pipeline.Window sig grid0 :=
  Pipeline.Window.ofSpec (Memref.whole main_arg0) S1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2x2x3.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1 : Shape := ⟨1, ![1]⟩
abbrev S_ : Shape := ⟨0, ![]⟩
abbrev S1x2x2x3 : Shape := ⟨4, ![1, 2, 2, 3]⟩
abbrev S4 : Shape := ⟨1, ![4]⟩

abbrev nBuf : Space → Nat
  | .hbm => 37
  | .vmem => 0
  | .smem => 0
  | _ => 0

abbrev bufTy : (tb : Table) → Fin (tcTables nBuf tb) → BufTy
  | .hbm, ⟨0, _⟩ => ⟨S1, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x2x2x3, .f32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S1, .i32⟩
  | .hbm, ⟨12, _⟩ => ⟨S_, .i32⟩
  | .hbm, ⟨13, _⟩ => ⟨S1, .i32⟩
  | .hbm, ⟨14, _⟩ => ⟨S4, .i32⟩
  | .hbm, ⟨15, _⟩ => ⟨S_, .f32⟩
  | .hbm, ⟨16, _⟩ => ⟨S1x2x2x3, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S4, .i32⟩
  | .hbm, ⟨26, _⟩ => ⟨S1x2x2x3, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S4, .i32⟩
  | .hbm, ⟨36, _⟩ => ⟨S1x2x2x3, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_c_4 : Ref sig .tc := ⟨.hbm, 17, rfl⟩
abbrev main_v10 : Ref sig .tc := ⟨.hbm, 18, rfl⟩
abbrev main_c_5 : Ref sig .tc := ⟨.hbm, 19, rfl⟩
abbrev main_v11 : Ref sig .tc := ⟨.hbm, 20, rfl⟩
abbrev main_c_6 : Ref sig .tc := ⟨.hbm, 21, rfl⟩
abbrev main_v12 : Ref sig .tc := ⟨.hbm, 22, rfl⟩
abbrev main_c_7 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_8 : Ref sig .tc := ⟨.hbm, 27, rfl⟩
abbrev main_v16 : Ref sig .tc := ⟨.hbm, 28, rfl⟩
abbrev main_c_9 : Ref sig .tc := ⟨.hbm, 29, rfl⟩
abbrev main_v17 : Ref sig .tc := ⟨.hbm, 30, rfl⟩
abbrev main_c_10 : Ref sig .tc := ⟨.hbm, 31, rfl⟩
abbrev main_v18 : Ref sig .tc := ⟨.hbm, 32, rfl⟩
abbrev main_c_11 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  shapeCasts_S1_S_ : S1.ShapeCasts S_
  bcast_S_S1x2x2x3 : S_.BroadcastsInDim S1x2x2x3 (![] : Fin 0 → Fin S1x2x2x3.rank)
  bcast_S_S1 : S_.BroadcastsInDim S1 (![] : Fin 0 → Fin S1.rank)
  concatenates_S1_S1_S1_S1_S4_d0 : Shape.Concatenates [S1, S1, S1, S1] S4 0
  scatter_S1x2x2x3_S4_S__n_0123_0123_0_wf : ScatterDims.WF S1x2x2x3 S4 S_ [] [0, 1, 2, 3] [0, 1, 2, 3] 0

variable [Facts₀]

def scatter_S1x2x2x3_S4_S__n_0123_0123_0 : ScatterDims S1x2x2x3 S4 S_ where
  updateWindowDims := []
  insertedWindowDims := [0, 1, 2, 3]
  scatterDimsToOperandDims := [0, 1, 2, 3]
  indexVectorDim := 0
  wf := scatter_S1x2x2x3_S4_S__n_0123_0123_0_wf

class Facts : Prop extends Facts₀ where

variable [Facts]
-- ==== Proof.LeftCore.lean ====
/-
  The left core of the rotation gate, as one function of the angle.

  The result is a tensor of shape [1, 2, 2, 3] with three entries that are not zero:
    position (0, 0, 0, 0) holds 1,
    position (0, 1, 1, 1) holds cos θ,
    position (0, 1, 1, 2) holds sin θ.
  Here θ ranges over the extended reals, cos and sin are the exact functions on the finite reals (with their fixed values at
  the two infinities), and the constants 1 and 0 are kept as the words both programs spell them with, so that they are
  never evaluated. The three positions are pairwise distinct, so the order in which a program tests for them is immaterial.
-/
import Idealize.ShloMosaic.PureOps.Ideal
import Idealize.ShloMosaic.Lib.ValueIdx

noncomputable section

namespace LeftCore

open Idealize.ShloMosaic Idealize.ShloMosaic.ValueIdx

/-- A one-element vector has one index: both programs read the angle at it. -/
theorem only_index (k : (⟨1, ![1]⟩ : Shape).Idx) : k = ix1 (0 : Fin 1) := by
  rw [eq_ix1 k]; exact congrArg ix1 (Subsingleton.elim (α := Fin 1) (k 0) 0)

/-- The shape of the core. -/
abbrev S : Shape := ⟨4, ![1, 2, 2, 3]⟩

/-- The three positions that are written. -/
abbrev posOne : S.Idx := ix4 (0 : Fin 1) (0 : Fin 2) (0 : Fin 2) (0 : Fin 3)
abbrev posCos : S.Idx := ix4 (0 : Fin 1) (1 : Fin 2) (1 : Fin 2) (1 : Fin 3)
abbrev posSin : S.Idx := ix4 (0 : Fin 1) (1 : Fin 2) (1 : Fin 2) (2 : Fin 3)

theorem posOne_ne_posCos : posOne ≠ posCos := by decide
theorem posOne_ne_posSin : posOne ≠ posSin := by decide
theorem posCos_ne_posSin : posCos ≠ posSin := by decide

/-- The words of the two constants. -/
abbrev one : EReal := Ideal.ofBits .f32 0x3F800000#32
abbrev zero : EReal := Ideal.ofBits .f32 0x00000000#32

/-- The core at angle `θ`. -/
def leftCore (θ : EReal) : S.Idx → EReal := fun i =>
  if i = posOne then one else if i = posCos then Ideal.cos θ else if i = posSin then Ideal.sin θ else zero

/-- Testing for the three positions in the opposite order gives the same tensor: they are distinct. -/
theorem leftCore_rev (θ : EReal) (i : S.Idx) :
    (if i = posSin then Ideal.sin θ else if i = posCos then Ideal.cos θ else if i = posOne then one else zero)
      = leftCore θ i := by
  unfold leftCore
  by_cases h0 : i = posOne
  · subst h0
    rw [if_neg posOne_ne_posSin, if_neg posOne_ne_posCos, if_pos rfl, if_pos rfl]
  · by_cases h1 : i = posCos
    · subst h1
      rw [if_neg posCos_ne_posSin, if_pos rfl, if_neg h0, if_pos rfl]
    · rw [if_neg h0, if_neg h1, if_neg h1, if_neg h0]

end LeftCore

end
-- ==== Proof.KernelCore.lean ====
/-
  The kernel computes the left core.

  The kernel's one grid point loads the one-element argument block, and stores to the whole output block a nested selection:
  where the three coordinate tests for (·, 0, 0, 0) all hold the constant 1, else where those for (·, 1, 1, 1) hold the
  cosine of the argument's element, else where those for (·, 1, 1, 2) hold its sine, else the constant 0. Each group of
  three tests is the indicator of one position of the tensor (the leading axis has one coordinate), so the stored value is
  the left core; the output block is the whole array, so the array after the run is the left core too.
-/
import proofs.«113110_j45157286150747_1_alg».proof.Proof.Gen.KernelIdeal.Value
import proofs.«113110_j45157286150747_1_alg».proof.Proof.LeftCore
import Idealize.ShloMosaic.Lib.ValueIdx
import Idealize.ShloMosaic.Lib.Pipeline.Value

noncomputable section

namespace Cert.KernelIdeal.Core

open Cert.KernelIdeal Cert.KernelIdeal.Gen Idealize.ShloMosaic Idealize.ShloMosaic.TcCoe Idealize.SL.Sem
open Idealize.ShloMosaic.ValueIdx LeftCore
open Idealize.ShloMosaic.Pipeline (Dat)

/-! ## The stored value is the left core -/

/-- The conjunction of the three coordinate tests "axis 1 is β, axis 2 is γ, axis 3 is δ", as the kernel computes it. -/
abbrev positionTest (β γ δ : BitVec 32) : IVec S1x2x2x3 1 :=
  andi (andi (cmpi .eq (iota .tc S1x2x2x3 32 [1] iota_S1x2x2x3_d1_w32) (broadcast S1x2x2x3 β))
      (cmpi .eq (iota .tc S1x2x2x3 32 [2] iota_S1x2x2x3_d2_w32) (broadcast S1x2x2x3 γ)))
    (cmpi .eq (iota .tc S1x2x2x3 32 [3] iota_S1x2x2x3_d3_w32) (broadcast S1x2x2x3 δ))

/-- Every index of the tensor is (0, b, c, d). -/
theorem index_cases (i : S1x2x2x3.Idx) : ∃ (b : Fin 2) (c : Fin 2) (d : Fin 3), i = ix4 (0 : Fin 1) b c d :=
  ⟨i 1, i 2, i 3, (eq_ix4 i).trans (congrArg (fun a => ix4 a (i 1) (i 2) (i 3)) (Subsingleton.elim (α := Fin 1) (i 0) 0))⟩

/-- Each of the kernel's three tests is the indicator of one position: decided over the twelve indices. -/
theorem test_one (i : S1x2x2x3.Idx) : positionTest 0#32 0#32 0#32 i = if i = posOne then 1#1 else 0#1 := by
  obtain ⟨b, c, d, rfl⟩ := index_cases i
  revert b c d; decide
theorem test_cos (i : S1x2x2x3.Idx) : positionTest 1#32 1#32 1#32 i = if i = posCos then 1#1 else 0#1 := by
  obtain ⟨b, c, d, rfl⟩ := index_cases i
  revert b c d; decide
theorem test_sin (i : S1x2x2x3.Idx) : positionTest 1#32 1#32 2#32 i = if i = posSin then 1#1 else 0#1 := by
  obtain ⟨b, c, d, rfl⟩ := index_cases i
  revert b c d; decide

/-- A selection on an indicator is a conditional. -/
theorem select_indicator {α : Type} (P : Prop) [Decidable P] (a b : α) :
    Scalar.select (if P then 1#1 else 0#1) a b = if P then a else b := by
  by_cases h : P
  · rw [if_pos h, if_pos h, select_one]
  · rw [if_neg h, if_neg h, select_zero]

/-- THE STORED VALUE: the body's payload, of the loaded one-element block, is the left core at that element. -/
theorem payload_eq (v0 : Vec Ideal S1 .f32) : k0_pay1 (F := Ideal) v0 = leftCore (v0 (ix1 0)) := by
  funext i
  have hcos : broadcastTo S1x2x2x3 (shapeCast S1x1x1x1 (cos (F := Ideal) (φ := .f32) (shapeCast S1x1x1x1 v0 shapeCasts_S1_S1x1x1x1)) shapeCasts_S1x1x1x1_S1x1x1x1)
      broadcasts_S1x1x1x1_S1x2x2x3 i = Ideal.cos (v0 (ix1 0)) :=
    congrArg (fun k => Ideal.cos (v0 k)) (only_index _)
  have hsin : broadcastTo S1x2x2x3 (shapeCast S1x1x1x1 (sin (F := Ideal) (φ := .f32) (shapeCast S1x1x1x1 v0 shapeCasts_S1_S1x1x1x1)) shapeCasts_S1x1x1x1_S1x1x1x1)
      broadcasts_S1x1x1x1_S1x2x2x3 i = Ideal.sin (v0 (ix1 0)) :=
    congrArg (fun k => Ideal.sin (v0 k)) (only_index _)
  show Scalar.select (positionTest 0#32 0#32 0#32 i) one
      (Scalar.select (positionTest 1#32 1#32 1#32 i) (broadcastTo S1x2x2x3 (shapeCast S1x1x1x1 (cos (F := Ideal) (φ := .f32) (shapeCast S1x1x1x1 v0 shapeCasts_S1_S1x1x1x1)) shapeCasts_S1x1x1x1_S1x1x1x1) broadcasts_S1x1x1x1_S1x2x2x3 i)
        (Scalar.select (positionTest 1#32 1#32 2#32 i) (broadcastTo S1x2x2x3 (shapeCast S1x1x1x1 (sin (F := Ideal) (φ := .f32) (shapeCast S1x1x1x1 v0 shapeCasts_S1_S1x1x1x1)) shapeCasts_S1x1x1x1_S1x1x1x1) broadcasts_S1x1x1x1_S1x2x2x3 i) zero)) = _
  rw [hcos, hsin, test_one, test_cos, test_sin, select_indicator, select_indicator, select_indicator]
  rfl

/-! ## From the one block to the array -/

variable (m : (ℓ : Loc nD τ sig) → Buf (Elt Ideal) ℓ) (ρ : Dev nD → PrngReg)

theorem zero_offsets1 : (![0] : Fin 1 → Nat) = fun _ => 0 := funext fun a => by fin_cases a <;> rfl
theorem zero_offsets4 : (![0, 0, 0, 0] : Fin 4 → Nat) = fun _ => 0 := funext fun a => by fin_cases a <;> rfl

/-- The angle: the one element of the argument array as the region finds it. -/
abbrev angle (c : Dev nD) : EReal := V m c main_arg0 (ix1 0)

/-- The output window's one block starts at the array's origin (decided over the one grid point), -/
theorem block_index : ∀ (t : Fin cfg0.N) (a : Fin 4), win0_1.index t a = 0 :=
  (by decide +kernel : ∀ (t : Fin grid0.N) (a : Fin 4), win0_1.index t a = 0)

/-- so an index inside the block is the same index of the array. -/
theorem block_emb (t : Fin cfg0.N) (j : S1x2x2x3.Idx) : ((cfg0.win 1).blk t).view.emb j = j := by
  funext a; apply Fin.ext
  show win0_1.index t a * S1x2x2x3.size a + 1 * (j a).val = (j a).val
  rw [block_index t a]; omega

/-- WHAT THE ONE POINT WRITES BACK is the left core at the angle, read through the output window's block. -/
theorem flushed_eq (c : Dev nD) (t : Fin cfg0.N) :
    (dats m 0 c).flushed 1 t = ((cfg0.win 1).blk t).view.read (Elt Ideal) (leftCore (angle m c)) := by
  rw [Value.flushed1]
  unfold out0_1
  rw [View.canon_unit_zero zero_offsets4]
  simp only [View.ld_unit_zero (S := S1) zero_offsets1]
  rw [payload_eq]
  funext j
  show leftCore (V m c main_arg0 (((cfg0.win 0).blk t).view.emb (ix1 0))) j = leftCore (angle m c) (((cfg0.win 1).blk t).view.emb j)
  rw [only_index (((cfg0.win 0).blk t).view.emb (ix1 0)), block_emb]

/-- Every index of the array is in the one point's block. -/
theorem covered (i : S1x2x2x3.Idx) : ∃ t : Fin cfg0.N, (cfg0.win 1).flush t = true ∧ i ∈ ((cfg0.win 1).blk t).view.set := by
  refine ⟨t0_0, flush0_1 t0_0, ?_⟩
  show i ∈ ((View.whole main_v0).slice (win0_1.rect t0_0)).set
  rw [View.set_slice_whole, Rect.mem_set_unit]
  intro a
  show win0_1.index t0_0 a * S1x2x2x3.size a ≤ (i a).val ∧ (i a).val < win0_1.index t0_0 a * S1x2x2x3.size a + S1x2x2x3.size a
  rw [block_index t0_0 a]
  have := (i a).isLt
  omega

/-- THE ARRAY AFTER THE RUN is the left core at the angle. -/
theorem final (c : Dev nD) : (dats m 0 c).arrAt 1 cfg0.N = leftCore (angle m c) :=
  (dats m 0 c).arrAt_eq_of_cover 1 (leftCore (angle m c)) (fun t _ => flushed_eq m c t) covered

/-- The kernel's run, read: the result array ends at the left core of the argument's element, the argument unchanged. -/
theorem run : θ_run defs (onTc (τ := τ) (main (F := Ideal))) ⟨m, fun _ => 0, ρ⟩ fun r => ∀ c : Dev nD,
      r.2.mem ((c : Thread nD τ).loc main_v0) = leftCore (m ((c : Thread nD τ).loc main_arg0) (ix1 0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Core

end
-- ==== Proof.LibPointScatter.lean ====
/-
  A scatter whose update is a single scalar.

  `stablehlo.scatter` folds one replacement step over the update's indices. When the update has rank zero there is exactly
  one such index, so the fold is a single step: if the start index read off the index vector lands inside the operand, the
  operand's element there is replaced by the body applied to it and the scalar, and every other element is kept; if it lands
  outside, the operand is returned unchanged. This is what `x.at[i0, i1, …].set(v)` and `.add(v)` with a scalar `v` lower to.
-/
import Idealize.ShloMosaic.PureOps.ShapeOps
import Idealize.ShloMosaic.Lib.ValueIdx

namespace PointScatter

open Idealize.ShloMosaic Idealize.ShloMosaic.ValueIdx

variable {s si : Shape} {w : Nat} {α : Type}

/-- The rank-zero shape has one index, and the fold of a scatter over it has one step. -/
theorem finRange_scalar :
    List.finRange (⟨0, ![]⟩ : Shape).numel = [(⟨0, Nat.one_pos⟩ : Fin (⟨0, ![]⟩ : Shape).numel)] := rfl

/-- A scalar scattered to a position INSIDE the operand: the element at that position becomes the body's value of the old
    element and the scalar; all other elements are the operand's. -/
theorem scatter_scalar_of_some (d : ScatterDims s si ⟨0, ![]⟩) (f : α → α → α) (x : s.Idx → α) (idx : IVec si w)
    (upd : (⟨0, ![]⟩ : Shape).Idx → α) (p : s.Idx) (h : d.resultIdx? ix0 idx = some p) :
    Host.scatter d f x idx upd = fun i => if i = p then f (x p) (upd ix0) else x i := by
  unfold Host.scatter
  rw [finRange_scalar]
  simp only [List.foldl_cons, List.foldl_nil]
  rw [eq_ix0 ((⟨0, ![]⟩ : Shape).rowMajor.symm _), h]

/-- A scalar scattered to a position OUTSIDE the operand is dropped. -/
theorem scatter_scalar_of_none (d : ScatterDims s si ⟨0, ![]⟩) (f : α → α → α) (x : s.Idx → α) (idx : IVec si w)
    (upd : (⟨0, ![]⟩ : Shape).Idx → α) (h : d.resultIdx? ix0 idx = none) :
    Host.scatter d f x idx upd = x := by
  unfold Host.scatter
  rw [finRange_scalar]
  simp only [List.foldl_cons, List.foldl_nil]
  rw [eq_ix0 ((⟨0, ![]⟩ : Shape).rowMajor.symm _), h]

/-- The `.at[…].set(v)` case: the body returns the update, so the one position holds the scalar. -/
theorem scatter_set_scalar (d : ScatterDims s si ⟨0, ![]⟩) (x : s.Idx → α) (idx : IVec si w)
    (upd : (⟨0, ![]⟩ : Shape).Idx → α) (p : s.Idx) (h : d.resultIdx? ix0 idx = some p) :
    Host.scatter d (fun _ b => b) x idx upd = fun i => if i = p then upd ix0 else x i :=
  scatter_scalar_of_some d (fun _ b => b) x idx upd p h

end PointScatter
-- ==== Proof.ReferenceCore.lean ====
/-
  The reference computes the left core.

  The reference starts from the zero tensor and writes three scalars into it, one position at a time: 1 at (0, 0, 0, 0),
  then cos θ at (0, 1, 1, 1), then sin θ at (0, 1, 1, 2), where θ is the one element of the argument (reshaped to a scalar).
  Each write is a scatter of a scalar at an index vector made of four literal words, so each replaces exactly one element;
  read at an index the result tests for the three positions in the opposite order of the writes, which is the left core.
-/
import proofs.«113110_j45157286150747_1_alg».proof.Proof.Gen.ReferenceIdeal.Run
import proofs.«113110_j45157286150747_1_alg».proof.Proof.LibPointScatter
import proofs.«113110_j45157286150747_1_alg».proof.Proof.LeftCore

noncomputable section

namespace Cert.ReferenceIdeal.Core

open Cert.ReferenceIdeal Cert.ReferenceIdeal.Gen Idealize.ShloMosaic Idealize.ShloMosaic.ValueIdx LeftCore

/-- An index vector of four literal words, as the reference builds it: four one-element pieces joined. -/
abbrev indexVector (a b c d : BitVec 32) : IVec S4 32 :=
  concatenate S4 0 [⟨S1, (broadcastInDim S1 ![] bcast_S_S1 (constantI S_ 32 a))⟩, ⟨S1, (broadcastInDim S1 ![] bcast_S_S1 (constantI S_ 32 b))⟩,
    ⟨S1, (broadcastInDim S1 ![] bcast_S_S1 (constantI S_ 32 c))⟩, ⟨S1, (broadcastInDim S1 ![] bcast_S_S1 (constantI S_ 32 d))⟩]
    concatenates_S1_S1_S1_S1_S4_d0

/-- Where each of the three index vectors lands: inside the tensor, at the position its four words spell. -/
theorem lands_one : scatter_S1x2x2x3_S4_S__n_0123_0123_0.resultIdx? ix0 (indexVector 0#32 0#32 0#32 0#32) = some posOne := by decide
theorem lands_cos : scatter_S1x2x2x3_S4_S__n_0123_0123_0.resultIdx? ix0 (indexVector 0#32 1#32 1#32 1#32) = some posCos := by decide
theorem lands_sin : scatter_S1x2x2x3_S4_S__n_0123_0123_0.resultIdx? ix0 (indexVector 0#32 1#32 1#32 2#32) = some posSin := by decide

/-- The term the reference's run ends at, as a function of the argument array: the left core at the argument's element. -/
theorem result_eq (x : Vec Ideal S1 .f32) :
    Host.scatter scatter_S1x2x2x3_S4_S__n_0123_0123_0 (fun _ b => b)
      (Host.scatter scatter_S1x2x2x3_S4_S__n_0123_0123_0 (fun _ b => b)
        (Host.scatter scatter_S1x2x2x3_S4_S__n_0123_0123_0 (fun _ b => b)
          (broadcastInDim S1x2x2x3 ![] bcast_S_S1x2x2x3 (constant (F := Ideal) S_ .f32 0x00000000#32))
          (indexVector 0#32 0#32 0#32 0#32) (constant (F := Ideal) S_ .f32 0x3F800000#32))
        (indexVector 0#32 1#32 1#32 1#32) (Host.cos (F := Ideal) (shapeCast _ x shapeCasts_S1_S_)))
      (indexVector 0#32 1#32 1#32 2#32) (Host.sin (F := Ideal) (shapeCast _ x shapeCasts_S1_S_))
    = leftCore (x (ix1 0)) := by
  rw [PointScatter.scatter_set_scalar _ _ _ _ posSin lands_sin, PointScatter.scatter_set_scalar _ _ _ _ posCos lands_cos,
    PointScatter.scatter_set_scalar _ _ _ _ posOne lands_one]
  funext i
  have hs : Host.sin (F := Ideal) (φ := .f32) (shapeCast S_ x shapeCasts_S1_S_) ix0 = Ideal.sin (x (ix1 0)) :=
    congrArg (fun k => Ideal.sin (x k)) (only_index _)
  have hc : Host.cos (F := Ideal) (φ := .f32) (shapeCast S_ x shapeCasts_S1_S_) ix0 = Ideal.cos (x (ix1 0)) :=
    congrArg (fun k => Ideal.cos (x k)) (only_index _)
  rw [← leftCore_rev]
  show (if i = posSin then Host.sin (F := Ideal) (φ := .f32) (shapeCast S_ x shapeCasts_S1_S_) ix0
    else if i = posCos then Host.cos (F := Ideal) (φ := .f32) (shapeCast S_ x shapeCasts_S1_S_) ix0 else if i = posOne then one else zero) = _
  rw [hs, hc]

end Cert.ReferenceIdeal.Core

end
-- ==== Proof.lean ====
/-
  The kernel and the reference compute the same tensor of shape [1, 2, 2, 3] from one angle θ: 1 at position (0, 0, 0, 0),
  cos θ at (0, 1, 1, 1), sin θ at (0, 1, 1, 2) and 0 elsewhere (Proof/LeftCore.lean). The kernel builds it in one store, as a
  nested selection on three position tests made of coordinate comparisons (Proof/KernelCore.lean); the reference writes the
  three scalars one after the other into the zero tensor (Proof/ReferenceCore.lean, over Proof/LibPointScatter.lean: a scatter
  of a scalar replaces one element). Read over the extended reals both apply the same cosine and sine to the same element and
  spell the two constants with the same words, so the two results agree at every θ, finite or not: the precondition is not
  used for the values. The idealized kernel is the kernel's own text, so there is nothing to preserve.
-/
import proofs.«113110_j45157286150747_1_alg».proof.Defs
import proofs.«113110_j45157286150747_1_alg».proof.Proof.Gen.Kernel
import proofs.«113110_j45157286150747_1_alg».proof.Proof.Gen.Kernel.Frame
import proofs.«113110_j45157286150747_1_alg».proof.Proof.Gen.KernelIdeal
import proofs.«113110_j45157286150747_1_alg».proof.Proof.Gen.KernelIdeal.Frame
import proofs.«113110_j45157286150747_1_alg».proof.Proof.Gen.ReferenceIdeal
import proofs.«113110_j45157286150747_1_alg».proof.Proof.Gen.ReferenceIdeal.Run
import proofs.«113110_j45157286150747_1_alg».proof.Proof.Gen.Pre_finite_inputs
import proofs.«113110_j45157286150747_1_alg».proof.Proof.KernelCore
import proofs.«113110_j45157286150747_1_alg».proof.Proof.ReferenceCore
import Idealize.ShloMosaic.Adequacy
import Idealize.ShloMosaic.Init

noncomputable section

namespace Cert.Proof

open Idealize.ShloMosaic Idealize.ShloMosaic.TcCoe Idealize.SL.Sem

/-- Each program runs to its end without a fault and leaves its argument as it found it. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the argument, the kernel's result array and the reference's both end at the left core of
    the argument's one element. -/
theorem algebraic : Cert.algebraic_KernelIdeal_ReferenceIdeal := by
  intro m ρ m' ρ' _ hagree
  refine ⟨_, Cert.KernelIdeal.Core.run m ρ, ?_⟩
  refine (θ_run Cert.ReferenceIdeal.defs _ _).mono (fun _ h c => ⟨(h c).1.trans ?_, (h c).2⟩)
    (Cert.ReferenceIdeal.Value.run (F := Ideal) m' ρ')
  rw [← hagree c]
  exact Cert.ReferenceIdeal.Core.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
